-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S4x4096x4096 : Shape := ⟨3, ![4, 4096, 4096]⟩
abbrev S1x1024x128 : Shape := ⟨3, ![1, 1024, 128]⟩
abbrev S1x1024x1024 : Shape := ⟨3, ![1, 1024, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  transposes_S1024x128_p1_0_S128x1024 : S1024x128.Transposes [1, 0] S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .f32 = 32 ∨ (Rect.block (s := S4x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x4096x4096, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .i1⟩
  | .hbm, ⟨13, _⟩ => ⟨S_, .f32⟩
  | .hbm, ⟨14, _⟩ => ⟨S4x4096x4096, .f32⟩
  | .hbm, ⟨15, _⟩ => ⟨S4x4096x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_call0_v0 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x128_S4x4096x128_S4x4096x4096_2_2_1_1_0_0_wf : DotDims.WF S4x4096x128 S4x4096x128 S4x4096x4096 [2] [2] [1] [1] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.TileBits.lean ====
/-
  One similarity tile. The launch runs the body once at each of the 64 grid points (g, i, j); at a point the body is
  handed a block of 1024 rows of group g twice over — the rows 1024·i … of the node array through the first window, the
  rows 1024·j … of the SAME array through the second — and a 1024 × 1024 tile of the result. It reads the two row blocks
  whole, multiplies the first by the transpose of the second, applies the logistic function and the threshold, and
  overwrites the tile whole. This module states what the tile holds afterwards as a function of the two row blocks, and
  proves the body's triple: run on the three staging memrefs, the two inputs at any contents and the tile at anything,
  it ends with the inputs as they were and the tile at that function of them.
-/
import proofs.«135617_j35837207118672_1_alg».proof.Proof.Gen.Kernel.Launch
import proofs.«135617_j35837207118672_1_alg».proof.Proof.Gen.Kernel.Skeleton
import proofs.«135617_j35837207118672_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole of a row block's staging buffer, and the whole of the tile's: the only rectangles the body touches. -/
abbrev rowsRect : Rect S1x1024x128 := Rect.unit (s := S1x1024x128) ![0, 0, 0] S1x1024x128.size Gen.inb_S1x1024x128_S1x1024x128_0_0_0
abbrev tileRect : Rect S1x1024x1024 := Rect.unit (s := S1x1024x1024) ![0, 0, 0] S1x1024x1024.size Gen.inb_S1x1024x1024_S1x1024x1024_0_0_0

/-- The tile after the body, from the two row blocks: its one store, of the thresholded logistic of the blocks' product. -/
def tileOf (rows cols : Vec F S1x1024x128 .f32) : Vec F S1x1024x1024 .f32 :=
  View.canon [⟨tileRect, k0_pay1 (View.ld rows rowsRect) (View.ld cols rowsRect)⟩]

/-- That store covers the tile. -/
theorem tile_covered (p0 : Vec F S1x1024x1024 .f32) (y : S1x1024x1024.Idx) :
    ∃ pc ∈ ([⟨tileRect, p0⟩] : List (View.Piece (Elt F) S1x1024x1024 .f32)), y ∈ pc.1.set :=
  View.cover_of_tiled [⟨tileRect, p0⟩] S1x1024x1024.size (by rfl) y

set_option maxHeartbeats 1000000 in
/-- The body on whole staging memrefs: the row blocks are read and kept, the tile (read once, the value unused) is
    overwritten whole with `tileOf` of the row blocks. -/
theorem tile_body (c : Dev nD) (E : Set ℕ) (i : grid0.Coords)
    (arg3 : Memref sig .tc .vmem S1x1024x128 .f32) (harg3 : arg3.IsWhole)
    (arg4 : Memref sig .tc .vmem S1x1024x128 .f32) (harg4 : arg4.IsWhole)
    (arg5 : Memref sig .tc .vmem S1x1024x1024 .f32) (harg5 : arg5.IsWhole)
    (rows cols : Vec F S1x1024x128 .f32) (K : PUnit → sProp 𝕄) :
    iprop(owns (c : Thread nD τ) arg3 fullShare rows ∗ owns (c : Thread nD τ) arg4 fullShare cols ∗ (∃ d, owns (c : Thread nD τ) arg5 fullShare d)
        ∗ (iprop(owns (c : Thread nD τ) arg3 fullShare rows ∗ owns (c : Thread nD τ) arg4 fullShare cols ∗ owns (c : Thread nD τ) arg5 fullShare (tileOf rows cols)) -∗ K ⟨⟩))
      ⊢ wp frame (wpE (defs₀ (F := F)) Variants.none c none) E (cc0__kernel i arg3 harg3 arg4 harg4 arg5 harg5) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

end Cert.Kernel.Tile

end
-- ==== Proof.LaunchBits.lean ====
/-
  The launch of the similarity kernel. The two input windows are blocks of ONE array, the node features: the region is
  entered holding that array whole, and it is dealt to the two windows half and half (a share each: both only read
  it); the result array is the third window's, held outright. The proof data say what each staging buffer holds after
  the body at a point: the inputs their row blocks, unchanged, and the tile `tileOf` of them. From the body's triple this
  module proves the obligation at every point, and from the library's launch theorem for windows that share an array
  the run: every weakly fair execution ends, with each window's array at what the write-backs leave of it.
-/
import proofs.«135617_j35837207118672_1_alg».proof.Proof.TileBits

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- @main is the region alone: the region finds every buffer as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as found; after the body at point `t` each input's buffer at its block and the tile's at
    `tileOf` of the two; between points only the scoped buffers no window stages; the node array a half to each input
    window; nothing owed. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tileOf (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = blockAt m c 0 t := by dsimp only [dats]
theorem after_cols (c : Dev nD) (t : Fin cfg0.N) : (dats m 0 c).after 1 t = blockAt m c 1 t := by dsimp only [dats]
theorem after_tile (c : Dev nD) (t : Fin cfg0.N) : (dats m 0 c).after 2 t = tileOf (blockAt m c 0 t) (blockAt m c 1 t) := by dsimp only [dats]

/-- Each input's current staging buffer holds its block at every point, fetched there or not: where the pipeline does
    not fetch, the block index has not moved and the body left the block in place. -/
theorem before_rows (c : Dev nD) (t : Fin cfg0.N) (d) : (dats m 0 c).before 0 t d = blockAt m c 0 t :=
  ((dats m 0 c).before_in_eq_fetched 0 rfl (fun _ => rfl) (fun _ _ _ => rfl)
    (fun t => by rw [after_rows]; unfold Dat.blockOf blockAt; rw [A_eq]; try rfl) t d).trans
    (by unfold Dat.fetched Dat.blockOf blockAt; rw [A_eq]; try rfl)
theorem before_cols (c : Dev nD) (t : Fin cfg0.N) (d) : (dats m 0 c).before 1 t d = blockAt m c 1 t :=
  ((dats m 0 c).before_in_eq_fetched 1 rfl (fun _ => rfl) (fun _ _ _ => rfl)
    (fun t => by rw [after_cols]; unfold Dat.blockOf blockAt; rw [A_eq]; try rfl) t d).trans
    (by unfold Dat.fetched Dat.blockOf blockAt; rw [A_eq]; try rfl)

/-! ## The body obligation -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (tile_body c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact point_body m c t

end Cert.Kernel.Tile

end
-- ==== Proof.RunBits.lean ====
/-
  The run of the similarity kernel's program. The node array, held whole when the region is entered, is split into the
  two halves the row window and the column window read it at; the result array goes to the tile window whole. With the
  body obligation this gives the library's run for windows that share an array: every weakly fair execution of @main
  ends, no step faulting, each window's array at what the write-backs leave of it. Read at the input windows, whose
  array nothing writes back, that is the frame: the node array ends as launched.
-/
import proofs.«135617_j35837207118672_1_alg».proof.Proof.LaunchBits

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are two: the node array and the result. -/
theorem arr_refs : Finset.univ.image (Pipeline.arrRef spec0) = ([main_arg0, main_v0] : List (Ref sig .tc)).toFinset := by decide

theorem share_rows (c : Dev nD) : (dats m 0 c).share 0 = fullShare.left := rfl
theorem share_cols (c : Dev nD) : (dats m 0 c).share 1 = fullShare.right := rfl
theorem share_tile (c : Dev nD) : (dats m 0 c).share 2 = fullShare := rfl

/-- Between points the data hold only the scoped buffers that no window stages. -/
theorem between_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- What the region holds of the windows' arrays when it is entered: the two buffers, each whole. -/
theorem held_eq (c : Dev nD) : (Pipeline.arrBufs spec0 c (V m c) : sProp 𝕄)
    = iprop((((c.tc : Thread nD τ).loc main_arg0) ↦{fullShare} V m c main_arg0) ∗ (((c.tc : Thread nD τ).loc main_v0) ↦{fullShare} V m c main_v0)) :=
  bigSep_eq_bigSepL_of_eq [main_arg0, main_v0] arr_refs (by decide) _

/-- The node array whole is a half of it for the row window and a half for the column window, at the same contents;
    the result array whole is the tile window's. -/
theorem arrays_dealt (c : Dev nD) :
    (Pipeline.arrBufs spec0 c (V m c) : sProp 𝕄) ⊢ (dats m 0 c).arrays ((dats m 0 c).arrAt · 0) := by
  rw [held_eq]
  unfold Dat.arrays
  rw [bigSep_W0, share_rows, share_cols, share_tile,
    (arr_whole0 0).set_eq_univ, (arr_whole0 2).set_eq_univ]
  iintro ⟨Hn, Hr⟩
  ihave Hn' := (pointsTo_share (PosShare.mem_left_op_right fullShare)).1 $$ Hn
  icases Hn' with ⟨Ha, Hb⟩
  isplitl [Ha]; · iexact Ha
  isplitl [Hb]; · iexact Hb
  iexact Hr

set_option backward.isDefEq.respectTransparency.types false in
/-- Every weakly fair execution of @main ends, no step faulting, with each window's array at what the write-backs of
    all 64 points leave of it. -/
theorem run_tiles : θ_run defs (onTc (τ := τ) (main (F := F))) ⟨m, fun _ => 0, ρ⟩
    (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [between_eq]
      iintro ⟨-, H⟩; iexact H)
    (hout := fun c => by
      rw [between_eq]
      iintro H; isplitr; · iempintro
      iexact H)
    (QY := fun _ _ => True)
    (hY := fun c s' => by
      iintro ⟨-, -, HSI⟩; imodintro
      isplitr; · ipureintro; trivial
      iexact HSI)
    (hQ := fun s h c w => (h c).1 w)

/-- The frame: the node array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_tiles m ρ)

end Cert.Kernel.Tile

end
-- ==== Proof.TileIdeal.lean ====
/-
  One similarity tile. The launch runs the body once at each of the 64 grid points (g, i, j); at a point the body is
  handed a block of 1024 rows of group g twice over — the rows 1024·i … of the node array through the first window, the
  rows 1024·j … of the SAME array through the second — and a 1024 × 1024 tile of the result. It reads the two row blocks
  whole, multiplies the first by the transpose of the second, applies the logistic function and the threshold, and
  overwrites the tile whole. This module states what the tile holds afterwards as a function of the two row blocks, and
  proves the body's triple: run on the three staging memrefs, the two inputs at any contents and the tile at anything,
  it ends with the inputs as they were and the tile at that function of them.
-/
import proofs.«135617_j35837207118672_1_alg».proof.Proof.Gen.KernelIdeal.Launch
import proofs.«135617_j35837207118672_1_alg».proof.Proof.Gen.KernelIdeal.Skeleton
import proofs.«135617_j35837207118672_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole of a row block's staging buffer, and the whole of the tile's: the only rectangles the body touches. -/
abbrev rowsRect : Rect S1x1024x128 := Rect.unit (s := S1x1024x128) ![0, 0, 0] S1x1024x128.size Gen.inb_S1x1024x128_S1x1024x128_0_0_0
abbrev tileRect : Rect S1x1024x1024 := Rect.unit (s := S1x1024x1024) ![0, 0, 0] S1x1024x1024.size Gen.inb_S1x1024x1024_S1x1024x1024_0_0_0

/-- The tile after the body, from the two row blocks: its one store, of the thresholded logistic of the blocks' product. -/
def tileOf (rows cols : Vec F S1x1024x128 .f32) : Vec F S1x1024x1024 .f32 :=
  View.canon [⟨tileRect, k0_pay1 (View.ld rows rowsRect) (View.ld cols rowsRect)⟩]

/-- That store covers the tile. -/
theorem tile_covered (p0 : Vec F S1x1024x1024 .f32) (y : S1x1024x1024.Idx) :
    ∃ pc ∈ ([⟨tileRect, p0⟩] : List (View.Piece (Elt F) S1x1024x1024 .f32)), y ∈ pc.1.set :=
  View.cover_of_tiled [⟨tileRect, p0⟩] S1x1024x1024.size (by rfl) y

set_option maxHeartbeats 1000000 in
/-- The body on whole staging memrefs: the row blocks are read and kept, the tile (read once, the value unused) is
    overwritten whole with `tileOf` of the row blocks. -/
theorem tile_body (c : Dev nD) (E : Set ℕ) (i : grid0.Coords)
    (arg3 : Memref sig .tc .vmem S1x1024x128 .f32) (harg3 : arg3.IsWhole)
    (arg4 : Memref sig .tc .vmem S1x1024x128 .f32) (harg4 : arg4.IsWhole)
    (arg5 : Memref sig .tc .vmem S1x1024x1024 .f32) (harg5 : arg5.IsWhole)
    (rows cols : Vec F S1x1024x128 .f32) (K : PUnit → sProp 𝕄) :
    iprop(owns (c : Thread nD τ) arg3 fullShare rows ∗ owns (c : Thread nD τ) arg4 fullShare cols ∗ (∃ d, owns (c : Thread nD τ) arg5 fullShare d)
        ∗ (iprop(owns (c : Thread nD τ) arg3 fullShare rows ∗ owns (c : Thread nD τ) arg4 fullShare cols ∗ owns (c : Thread nD τ) arg5 fullShare (tileOf rows cols)) -∗ K ⟨⟩))
      ⊢ wp frame (wpE (defs₀ (F := F)) Variants.none c none) E (cc0__kernel i arg3 harg3 arg4 harg4 arg5 harg5) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

end Cert.KernelIdeal.Tile

end
-- ==== Proof.LaunchIdeal.lean ====
/-
  The launch of the similarity kernel. The two input windows are blocks of ONE array, the node features: the region is
  entered holding that array whole, and it is dealt to the two windows half and half (a share each: both only read
  it); the result array is the third window's, held outright. The proof data say what each staging buffer holds after
  the body at a point: the inputs their row blocks, unchanged, and the tile `tileOf` of them. From the body's triple this
  module proves the obligation at every point, and from the library's launch theorem for windows that share an array
  the run: every weakly fair execution ends, with each window's array at what the write-backs leave of it.
-/
import proofs.«135617_j35837207118672_1_alg».proof.Proof.TileIdeal

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- @main is the region alone: the region finds every buffer as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as found; after the body at point `t` each input's buffer at its block and the tile's at
    `tileOf` of the two; between points only the scoped buffers no window stages; the node array a half to each input
    window; nothing owed. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tileOf (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = blockAt m c 0 t := by dsimp only [dats]
theorem after_cols (c : Dev nD) (t : Fin cfg0.N) : (dats m 0 c).after 1 t = blockAt m c 1 t := by dsimp only [dats]
theorem after_tile (c : Dev nD) (t : Fin cfg0.N) : (dats m 0 c).after 2 t = tileOf (blockAt m c 0 t) (blockAt m c 1 t) := by dsimp only [dats]

/-- Each input's current staging buffer holds its block at every point, fetched there or not: where the pipeline does
    not fetch, the block index has not moved and the body left the block in place. -/
theorem before_rows (c : Dev nD) (t : Fin cfg0.N) (d) : (dats m 0 c).before 0 t d = blockAt m c 0 t :=
  ((dats m 0 c).before_in_eq_fetched 0 rfl (fun _ => rfl) (fun _ _ _ => rfl)
    (fun t => by rw [after_rows]; unfold Dat.blockOf blockAt; rw [A_eq]; try rfl) t d).trans
    (by unfold Dat.fetched Dat.blockOf blockAt; rw [A_eq]; try rfl)
theorem before_cols (c : Dev nD) (t : Fin cfg0.N) (d) : (dats m 0 c).before 1 t d = blockAt m c 1 t :=
  ((dats m 0 c).before_in_eq_fetched 1 rfl (fun _ => rfl) (fun _ _ _ => rfl)
    (fun t => by rw [after_cols]; unfold Dat.blockOf blockAt; rw [A_eq]; try rfl) t d).trans
    (by unfold Dat.fetched Dat.blockOf blockAt; rw [A_eq]; try rfl)

/-! ## The body obligation -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (tile_body c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact point_body m c t

end Cert.KernelIdeal.Tile

end
-- ==== Proof.RunIdeal.lean ====
/-
  The run of the similarity kernel's program. The node array, held whole when the region is entered, is split into the
  two halves the row window and the column window read it at; the result array goes to the tile window whole. With the
  body obligation this gives the library's run for windows that share an array: every weakly fair execution of @main
  ends, no step faulting, each window's array at what the write-backs leave of it. Read at the input windows, whose
  array nothing writes back, that is the frame: the node array ends as launched.
-/
import proofs.«135617_j35837207118672_1_alg».proof.Proof.LaunchIdeal

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are two: the node array and the result. -/
theorem arr_refs : Finset.univ.image (Pipeline.arrRef spec0) = ([main_arg0, main_v0] : List (Ref sig .tc)).toFinset := by decide

theorem share_rows (c : Dev nD) : (dats m 0 c).share 0 = fullShare.left := rfl
theorem share_cols (c : Dev nD) : (dats m 0 c).share 1 = fullShare.right := rfl
theorem share_tile (c : Dev nD) : (dats m 0 c).share 2 = fullShare := rfl

/-- Between points the data hold only the scoped buffers that no window stages. -/
theorem between_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- What the region holds of the windows' arrays when it is entered: the two buffers, each whole. -/
theorem held_eq (c : Dev nD) : (Pipeline.arrBufs spec0 c (V m c) : sProp 𝕄)
    = iprop((((c.tc : Thread nD τ).loc main_arg0) ↦{fullShare} V m c main_arg0) ∗ (((c.tc : Thread nD τ).loc main_v0) ↦{fullShare} V m c main_v0)) :=
  bigSep_eq_bigSepL_of_eq [main_arg0, main_v0] arr_refs (by decide) _

/-- The node array whole is a half of it for the row window and a half for the column window, at the same contents;
    the result array whole is the tile window's. -/
theorem arrays_dealt (c : Dev nD) :
    (Pipeline.arrBufs spec0 c (V m c) : sProp 𝕄) ⊢ (dats m 0 c).arrays ((dats m 0 c).arrAt · 0) := by
  rw [held_eq]
  unfold Dat.arrays
  rw [bigSep_W0, share_rows, share_cols, share_tile,
    (arr_whole0 0).set_eq_univ, (arr_whole0 2).set_eq_univ]
  iintro ⟨Hn, Hr⟩
  ihave Hn' := (pointsTo_share (PosShare.mem_left_op_right fullShare)).1 $$ Hn
  icases Hn' with ⟨Ha, Hb⟩
  isplitl [Ha]; · iexact Ha
  isplitl [Hb]; · iexact Hb
  iexact Hr

set_option backward.isDefEq.respectTransparency.types false in
/-- Every weakly fair execution of @main ends, no step faulting, with each window's array at what the write-backs of
    all 64 points leave of it. -/
theorem run_tiles : θ_run defs (onTc (τ := τ) (main (F := F))) ⟨m, fun _ => 0, ρ⟩
    (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [between_eq]
      iintro ⟨-, H⟩; iexact H)
    (hout := fun c => by
      rw [between_eq]
      iintro H; isplitr; · iempintro
      iexact H)
    (QY := fun _ _ => True)
    (hY := fun c s' => by
      iintro ⟨-, -, HSI⟩; imodintro
      isplitr; · ipureintro; trivial
      iexact HSI)
    (hQ := fun s h c w => (h c).1 w)

/-- The frame: the node array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_tiles m ρ)

end Cert.KernelIdeal.Tile

end
-- ==== Proof.Similarity.lean ====
/-
  The thresholded similarity of the nodes of each group, as one function of the node features over the extended reals.
  Entry (g, n, n') is the logistic function of the inner product of the feature rows n and n' of group g, kept where it
  is at least the threshold (the f32 nearest 0.6) and replaced by zero below it.
-/
import Idealize.ShloMosaic.PureOps.Ideal
import Idealize.ShloMosaic.PureOps.Ideal.Laws
import Idealize.ShloMosaic.Lib.ValueIdx
import Idealize.ShloMosaic.Lib.IdealHost

noncomputable section

namespace Cert.Similarity

open Idealize.ShloMosaic

/-- The node features: 4 groups of 4096 nodes of 128 features; and the pairs of nodes of one group. -/
abbrev Nodes : Shape := ⟨3, ![4, 4096, 128]⟩
abbrev Pairs : Shape := ⟨3, ![4, 4096, 4096]⟩

/-- Feature `k` of the first node of pair `i`, and of the second. -/
abbrev firstFeat (i : Pairs.Idx) (k : Fin 128) : Nodes.Idx := fun a => match a with
  | ⟨0, _⟩ => ⟨(i 0).val, (i 0).isLt⟩
  | ⟨1, _⟩ => ⟨(i 1).val, (i 1).isLt⟩
  | ⟨2, _⟩ => ⟨k.val, k.isLt⟩
abbrev secondFeat (i : Pairs.Idx) (k : Fin 128) : Nodes.Idx := fun a => match a with
  | ⟨0, _⟩ => ⟨(i 0).val, (i 0).isLt⟩
  | ⟨1, _⟩ => ⟨(i 2).val, (i 2).isLt⟩
  | ⟨2, _⟩ => ⟨k.val, k.isLt⟩

/-- The inner product of the two nodes' feature rows. -/
def inner (x : Nodes.Idx → Ideal .f32) (i : Pairs.Idx) : Ideal .f32 :=
  ∑ k : Fin 128, x (firstFeat i k) * x (secondFeat i k)

/-- A similarity below the threshold is dropped to zero; any other is kept. -/
def keepStrong (s : Ideal .f32) : Ideal .f32 :=
  Scalar.select (FloatOps.cmpf (F := Ideal) .olt s (Ideal.ofBits .f32 0x3F19999A#32)) (Ideal.ofBits .f32 0x00000000#32) s

/-- The adjacency weights. -/
def adjacency (x : Nodes.Idx → Ideal .f32) : Pairs.Idx → Ideal .f32 := fun i =>
  keepStrong (Ideal.logistic (inner x i))

end Cert.Similarity

end
-- ==== Proof.TileValue.lean ====
/-
  One entry of the tile. The body casts the two row blocks to matrices, multiplies the first (1024 × 128) by the
  transpose of the second (128 × 1024) into a zero accumulator, applies the logistic function entry by entry, and
  thresholds. At the extended reals the narrowing of the factors to bf16 is the identity, so entry (p, q) of the product
  is the inner product of row p of the first block with row q of the second; the tile's entry is the thresholded
  logistic of it.
-/
import proofs.«135617_j35837207118672_1_alg».proof.Proof.Gen.KernelIdeal.Skeleton
import proofs.«135617_j35837207118672_1_alg».proof.Proof.Similarity
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen Cert.Similarity

/-! ## The product's operand indices, axis by axis -/

theorem lhs_rows (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_feat (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_feat (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_cols (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- Entry (p, q) of the product into a zero accumulator: the sum over the 128 features of row p of the left factor times
    column q of the right. -/
theorem product_apply (a : FVec Ideal S1024x128 .bf16) (b : FVec Ideal S128x1024 .bf16) (p q : Fin 1024) :
    matmul dot_S1024x128_S128x1024_S1024x1024_1_0_0_1_n_n none a b (constant S1024x1024 .f32 0x00000000#32) (ix2 p q)
      = ∑ k : Fin 128, a (ix2 p k) * b (ix2 k q) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_rows _ _
    | ⟨1, _⟩ => exact (lhs_feat _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_feat _ _).trans hk
    | ⟨1, _⟩ => exact rhs_cols _ _)
  rw [el, er]

/-- Entry (p, q) of the tile: the thresholded logistic of the inner product of row p of the first block and row q of
    the second. -/
theorem tile_entry (rows cols : Vec Ideal S1x1024x128 .f32) (u : Fin 1) (p q : Fin 1024) :
    k0_pay1 (F := Ideal) rows cols (ix3 u p q)
      = keepStrong (Ideal.logistic (∑ k : Fin 128, rows (ix3 (0 : Fin 1) p k) * cols (ix3 (0 : Fin 1) q k))) := by
  unfold k0_pay1
  refine (shapeCast_ab_1ab_apply _ _ u p q).trans ?_
  show keepStrong (Ideal.logistic (matmul (F := Ideal) dot_S1024x128_S128x1024_S1024x1024_1_0_0_1_n_n none _ _ (constant S1024x1024 .f32 0x00000000#32) (ix2 p q))) = _
  rw [product_apply]
  refine congrArg (fun d => keepStrong (Ideal.logistic d)) (Finset.sum_congr rfl fun k _ => ?_)
  rw [truncf_apply, shapeCast_1ab_ab_apply, transpose_ix2_apply, truncf_apply, shapeCast_1ab_ab_apply]

end Cert.KernelIdeal.Entry

end
-- ==== Proof.ArrayValue.lean ====
/-
  The result array after the run. At point (g, i, j) the kernel writes back the tile of rows 1024·i … and columns
  1024·j … of group g; by the tile's entries and the blocks the two input windows read there — rows 1024·i … and rows
  1024·j … of group g of the node array — that tile is the block of the adjacency weights of the node array. The 64 tiles
  cover the result array, so it ends holding the adjacency weights of the node array as launched.
-/
import proofs.«135617_j35837207118672_1_alg».proof.Proof.RunIdeal
import proofs.«135617_j35837207118672_1_alg».proof.Proof.TileValue

set_option maxRecDepth 16384

noncomputable section

namespace Cert.KernelIdeal.Tile

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Entry Cert.Similarity

variable (m : (ℓ : Loc nD τ sig) → Buf (Elt Ideal) ℓ) (ρ : Dev nD → PrngReg)

theorem origin_eq : (![0, 0, 0] : Fin 3 → Nat) = fun _ => 0 := funext fun a => by fin_cases a <;> rfl

/-- The printed index maps, decided over the grid: the row window moves with the tile's group and row block, the
    column window with its group and column block, neither along the features; the tile's block indices are below 4. -/
theorem index_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 3 ∧ win0_2.index t (1 : Fin 3) ≤ 3 ∧ win0_2.index t (2 : Fin 3) ≤ 3 :=
  (by decide +kernel : ∀ t : Fin grid0.N, _)

/-- Every (group, row block, column block) is some point's tile. -/
theorem index_onto : ∀ (g i j : Fin 4), ∃ t : Fin cfg0.N, win0_2.index t = ![g.val, i.val, j.val] :=
  (by decide +kernel : ∀ (g i j : Fin 4), ∃ t : Fin grid0.N, win0_2.index t = ![g.val, i.val, j.val])

/-- What point `t` writes back is its block of the adjacency weights of the node array. -/
theorem written_eq (c : Dev nD) (t : Fin cfg0.N) :
    (dats m 0 c).flushed 2 t = ((cfg0.win 2).blk t).view.read (Elt Ideal) (adjacency (V m c main_arg0)) := by
  show (cfg0.win 2).cut (grid0.coords t) ((dats m 0 c).after 2 t) = _
  rw [after_tile]
  unfold tileOf
  rw [View.canon_unit_zero origin_eq]
  simp only [View.ld_unit_zero (S := S1x1024x128) origin_eq]
  obtain ⟨e0, e1, e2, e3, e4, e5, b0, b1, b2⟩ := index_facts t
  funext j
  obtain ⟨u, p, q, rfl⟩ : ∃ (u : Fin 1) (p q : Fin 1024), j = ix3 u p q := ⟨j 0, j 1, j 2, eq_ix3 j⟩
  show k0_pay1 (F := Ideal) (blockAt m c 0 t) (blockAt m c 1 t) (ix3 u p q)
    = adjacency (V m c main_arg0) (((cfg0.win 2).blk t).view.emb (ix3 u p q))
  rw [tile_entry]
  unfold adjacency Cert.Similarity.inner
  refine congrArg (fun d => keepStrong (Ideal.logistic d)) (Finset.sum_congr rfl fun k _ => ?_)
  have hu : u.val = 0 := by omega
  have h0 : blockAt m c 0 t (ix3 (0 : Fin 1) p k) = V m c main_arg0 (firstFeat (((cfg0.win 2).blk t).view.emb (ix3 u p q)) k) := by
    show V m c main_arg0 (((cfg0.win 0).blk t).view.emb (ix3 (0 : Fin 1) p k)) = _
    refine congrArg _ (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 1024 + 1 * p.val = win0_2.index t (1 : Fin 3) * 1024 + 1 * p.val; omega
    | ⟨2, _⟩ => show win0_0.index t (2 : Fin 3) * 128 + 1 * k.val = k.val; omega
  have h1 : blockAt m c 1 t (ix3 (0 : Fin 1) q k) = V m c main_arg0 (secondFeat (((cfg0.win 2).blk t).view.emb (ix3 u p q)) k) := by
    show V m c main_arg0 (((cfg0.win 1).blk t).view.emb (ix3 (0 : Fin 1) q k)) = _
    refine congrArg _ (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * q.val = win0_2.index t (2 : Fin 3) * 1024 + 1 * q.val; omega
    | ⟨2, _⟩ => show win0_1.index t (2 : Fin 3) * 128 + 1 * k.val = k.val; omega
  rw [h0, h1]

/-- An index of the result array is in point `t`'s tile iff each coordinate is in the tile's range on its axis. -/
theorem mem_tile (t : Fin cfg0.N) (i : S4x4096x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result array is in the tile of the point of its group, row block and column block. -/
theorem covered (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run: the adjacency weights of the node array as launched. -/
theorem weights_final (c : Dev nD) :
    (dats m 0 c).arrAt 2 cfg0.N = adjacency (m ((c : Thread nD τ).loc main_arg0)) :=
  (dats m 0 c).arrAt_eq_of_cover 2 (adjacency (V m c main_arg0)) (fun t _ => written_eq m c t) covered

/-- The run: the result array ends at the adjacency weights of the node array, which ends as launched. -/
theorem run_weights : θ_run defs (onTc (τ := τ) (main (F := Ideal))) ⟨m, fun _ => 0, ρ⟩ fun r => ∀ c : Dev nD,
      r.2.mem ((c.tc : Thread nD τ).loc main_v0) = adjacency (m ((c.tc : Thread nD τ).loc main_arg0))
      ∧ r.2.mem ((c.tc : Thread nD τ).loc main_arg0) = m ((c.tc : Thread nD τ).loc main_arg0) :=
  (θ_run defs _ _).mono (fun r h c => ⟨(h c 2).trans (weights_final m c),
      ((h c 0).trans ((dats m 0 c).arrAt_in 0 rfl _)).trans (A_eq m c 0)⟩)
    (run_tiles m ρ)

end Cert.KernelIdeal.Tile

end
-- ==== Proof.RefValue.lean ====
/-
  The reference computes the adjacency weights. Its program is a batched product of the node features with themselves
  (for each group, rows against rows), the logistic function spelt out as 1 / (1 + e^(-d)), and the threshold by a
  comparison and a select against a zero splat. Read index by index at the extended reals that is `adjacency`: the
  batched product's entry is the inner product of the two feature rows, and the spelt-out quotient is the logistic
  function by its definition.
-/
import proofs.«135617_j35837207118672_1_alg».proof.Proof.Gen.ReferenceIdeal.Run
import proofs.«135617_j35837207118672_1_alg».proof.Proof.Gen.ReferenceIdeal.Read
import proofs.«135617_j35837207118672_1_alg».proof.Proof.Similarity

noncomputable section

namespace Cert.ReferenceIdeal.Weights

open Idealize.ShloMosaic Cert.ReferenceIdeal Cert.ReferenceIdeal.Gen Cert.ReferenceIdeal.Read Cert.Similarity

/-- The reference's result, as the generated run states it, is the adjacency of the node features. -/
theorem result_eq (x : (⟨S4x4096x128, .f32⟩ : BufTy).Contents (Elt Ideal)) :
    val_main_v9 (F := Ideal) x = adjacency x := by
  funext i
  rw [val_main_v9_apply, val_main_v8_apply, val_main_v6_apply, val_main_v5_apply, val_main_cst_0_apply, val_main_v4_apply,
    val_main_v3_apply, val_main_cst_apply, val_main_v2_apply, val_main_v1_apply, val_main_v0_apply, val_main_v7_apply,
    val_main_cst_1_apply, val_main_call0_v0_apply, val_main_cst_2_apply]
  simp only [Ideal.ofBits_def, Ideal.ofBits_one_f32, Ideal.hostDivf_def, Ideal.addf_def, Ideal.hostUnary_exp_def,
    Ideal.hostNegf_def, Ideal.negf_def]
  rfl

end Cert.ReferenceIdeal.Weights

end
-- ==== Proof.lean ====
/-
  The certificate of the similarity kernel against its reference. Both programs compute, for each group of nodes, the
  logistic function of every inner product of two feature rows, with the values below the threshold dropped to zero.
  The kernel does it tile by tile, reading the node array through two windows at once (the rows of the tile's row
  block and the rows of its column block); the reference with one batched product. Over the extended reals the
  kernel's narrowing of the factors to bf16 is the identity, its logistic operation is by definition the quotient
  1 / (1 + e^(-d)) the reference spells out, and the threshold is the same comparison against the same constant; so both
  results are the one function `adjacency` of the node array, and no finiteness of the inputs is used. The kernel's
  frames (at the machine words and at the extended reals) come from the run of the tiled launch; the reference's frame
  from its generated run; nothing was rewritten by idealization, so there is nothing to preserve.
-/
import proofs.«135617_j35837207118672_1_alg».proof.Defs
import proofs.«135617_j35837207118672_1_alg».proof.Proof.Gen.Kernel
import proofs.«135617_j35837207118672_1_alg».proof.Proof.Gen.KernelIdeal
import proofs.«135617_j35837207118672_1_alg».proof.Proof.Gen.ReferenceIdeal
import proofs.«135617_j35837207118672_1_alg».proof.Proof.Gen.Pre_finite_inputs
import proofs.«135617_j35837207118672_1_alg».proof.Proof.RunBits
import proofs.«135617_j35837207118672_1_alg».proof.Proof.ArrayValue
import proofs.«135617_j35837207118672_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves the node array as launched. -/
theorem frame_words : Cert.frame_Kernel := fun m ρ _ => Cert.Kernel.Tile.frame (F := Bits) m ρ

/-- So does its reading over the extended reals. -/
theorem frame_reals : Cert.frame_KernelIdeal := fun m ρ _ => Cert.KernelIdeal.Tile.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From node arrays that agree, the kernel's result array and the reference's both end at the adjacency weights. -/
theorem algebraic : Cert.algebraic_KernelIdeal_ReferenceIdeal := by
  intro m ρ m' ρ' _ hagree
  refine ⟨fun c => Cert.Similarity.adjacency (m ((c.tc : Thread Cert.KernelIdeal.nD Cert.KernelIdeal.τ).loc Cert.KernelIdeal.main_arg0)),
    Cert.KernelIdeal.Tile.run_weights m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Weights.result_eq, hagree c]

theorem claim : Cert.Claim :=
  ⟨Cert.Kernel.Gen.facts, Cert.KernelIdeal.Gen.facts, Cert.ReferenceIdeal.Gen.facts, Cert.Pre_finite_inputs.Gen.facts,
    frame_words, frame_reals, frame_reference, preserves, algebraic⟩

end Cert.Proof

end
